-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128 : Shape := ⟨1, ![128]⟩
abbrev S128x128 : Shape := ⟨2, ![128, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S1048576x128 .f32) (main_arg1 : FVec F S128 .f32) (main_arg2 : FVec F S128x128 .f32) (main_arg3 : FVec F S128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S1048576x128 : Shape := ⟨2, ![1048576, 128]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S8192x128 : Shape := ⟨2, ![8192, 128]⟩

abbrev nBuf : Space → Nat
  | .hbm => 7
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S128, .f32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1x128, .f32⟩
  | .hbm, ⟨6, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S128x1, .f32⟩
  | .local _ .vmem, ⟨3, _⟩ => ⟨S128x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S128x1 : S128.ShapeCasts S128x1
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  broadcasts_S128x1_S128x128 : S128x1.Broadcasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1048576x128.size a
  hwx0_4 : ∀ i : grid0.Coords, EltTy.bits .f32 = 32 ∨ (Rect.block (s := S1048576x128) S8192x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128 : Shape := ⟨1, ![128]⟩
abbrev S128x128 : Shape := ⟨2, ![128, 128]⟩
abbrev S128x1 : Shape := ⟨2, ![128, 1]⟩
abbrev S1x128 : Shape := ⟨2, ![1, 128]⟩

abbrev nBuf : Space → Nat
  | .hbm => 13
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x1, .f32⟩
  | .hbm, ⟨6, _⟩ => ⟨S128x128, .f32⟩
  | .hbm, ⟨7, _⟩ => ⟨S128x128, .f32⟩
  | .hbm, ⟨8, _⟩ => ⟨S1048576x128, .f32⟩
  | .hbm, ⟨9, _⟩ => ⟨S1x128, .f32⟩
  | .hbm, ⟨10, _⟩ => ⟨S1048576x128, .f32⟩
  | .hbm, ⟨11, _⟩ => ⟨S1048576x128, .f32⟩
  | .hbm, ⟨12, _⟩ => ⟨S1048576x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  dot_S1048576x128_S128x128_S1048576x128_1_0_0_1_n_n_wf : DotDims.WF S1048576x128 S128x128 S1048576x128 [1] [0] [0] [1] [] []

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf

class Facts : Prop extends Facts₀ where

variable [Facts]
-- ==== Proof.Layer.lean ====
/-
  The layer both programs compute, as ONE function of the four argument arrays over the extended reals.
  Row k of the weight matrix V is scaled by exp(s[k]); every batch row of x is multiplied into the scaled
  matrix; the bias row is added to every batch row; tanh is applied entry by entry:

      out[r, c] = tanh( Σ_{k < 128} x[r, k] · (exp(s[k]) · V[k, c]) + bias[c] ).

  Both programs form the same products in the same association and sum them over the same 128 values of k,
  so no law of arithmetic on the extended reals is needed between them: each is read at an index and found to
  be this function. In particular nothing here depends on the inputs being finite.
-/
import Idealize.ShloMosaic.Lib.ValueIdx

noncomputable section

open scoped BigOperators

namespace Cert.Layer

open Idealize.ShloMosaic Idealize.ShloMosaic.ValueIdx

/-- Entry (k, c) of the scaled weight matrix diag(exp s) · V. -/
def weight (s : (⟨1, ![128]⟩ : Shape).Idx → EReal) (v : (⟨2, ![128, 128]⟩ : Shape).Idx → EReal) (k c : Fin 128) : EReal :=
  Ideal.exp (s (ix1 k)) * v (ix2 k c)

/-- Entry (r, c) of the layer's output: batch row r against column c of the scaled weights, plus the bias, through tanh. -/
def entry (x : (⟨2, ![1048576, 128]⟩ : Shape).Idx → EReal) (s : (⟨1, ![128]⟩ : Shape).Idx → EReal)
    (v : (⟨2, ![128, 128]⟩ : Shape).Idx → EReal) (b : (⟨1, ![128]⟩ : Shape).Idx → EReal) (r : Fin 1048576) (c : Fin 128) : EReal :=
  Ideal.tanh ((∑ k : Fin 128, x (ix2 r k) * weight s v k c) + b (ix1 c))

/-- The layer's output array. -/
def out (x : (⟨2, ![1048576, 128]⟩ : Shape).Idx → EReal) (s : (⟨1, ![128]⟩ : Shape).Idx → EReal)
    (v : (⟨2, ![128, 128]⟩ : Shape).Idx → EReal) (b : (⟨1, ![128]⟩ : Shape).Idx → EReal) : (⟨2, ![1048576, 128]⟩ : Shape).Idx → EReal :=
  fun i => entry x s v b (i 0) (i 1)

theorem out_apply (x : (⟨2, ![1048576, 128]⟩ : Shape).Idx → EReal) (s : (⟨1, ![128]⟩ : Shape).Idx → EReal)
    (v : (⟨2, ![128, 128]⟩ : Shape).Idx → EReal) (b : (⟨1, ![128]⟩ : Shape).Idx → EReal) (r : Fin 1048576) (c : Fin 128) :
    out x s v b (ix2 r c) = entry x s v b r c := rfl

end Cert.Layer

end
-- ==== Proof.RefLayer.lean ====
/-
  The reference program's result is the layer. Its nine host operations, read one at a time at an index:
  exp of s, two broadcasts that place exp(s[k]) at every (k, c), the product with V, the contraction of x's
  rows against it over k, two broadcasts that place bias[c] at every (r, c), the sum, and tanh.
-/
import proofs.«425555_j35854386987282_3_alg».proof.Proof.Gen.ReferenceIdeal.Read
import proofs.«425555_j35854386987282_3_alg».proof.Proof.Layer

noncomputable section

open scoped BigOperators

namespace Cert.Layer

open Cert.ReferenceIdeal Cert.ReferenceIdeal.Read Idealize.ShloMosaic Idealize.ShloMosaic.ValueIdx

/-- The left operand of the contraction at output (r, c) and k is x[r, k]. -/
theorem lidx_eq (r : Fin 1048576) (c k : Fin 128) : lidx_main_v4 (ix2 r c) k = ix2 r k :=
  funext fun a => by match a with | ⟨0, _⟩ => rfl | ⟨1, _⟩ => rfl

/-- The right operand of the contraction at output (r, c) and k is the scaled weight at (k, c). -/
theorem ridx_eq (r : Fin 1048576) (c k : Fin 128) : ridx_main_v4 (ix2 r c) k = ix2 k c :=
  funext fun a => by match a with | ⟨0, _⟩ => rfl | ⟨1, _⟩ => rfl

/-- The two broadcasts of exp(s) read, at (k, c), entry k. -/
theorem scale_idx_eq (k c : Fin 128) : idx_main_v1 (idx_main_v2 (ix2 k c)) = ix1 k :=
  funext fun a => by match a with | ⟨0, _⟩ => rfl

/-- The two broadcasts of the bias read, at (r, c), entry c. -/
theorem bias_idx_eq (r : Fin 1048576) (c : Fin 128) : idx_main_v5 (idx_main_v6 (ix2 r c)) = ix1 c :=
  funext fun a => by match a with | ⟨0, _⟩ => rfl

/-- The scaled weight the reference forms, at (k, c). -/
theorem scaled_eq (x1 : (⟨S128, .f32⟩ : BufTy).Contents (Elt Ideal)) (x2 : (⟨S128x128, .f32⟩ : BufTy).Contents (Elt Ideal)) (k c : Fin 128) :
    val_main_v3 (F := Ideal) x1 x2 (ix2 k c) = weight x1 x2 k c := by
  rw [val_main_v3_apply, val_main_v2_apply, val_main_v1_apply, val_main_v0_apply, scale_idx_eq]
  rfl

/-- The reference's result, as a function of its four arguments, is the layer. -/
theorem reference_eq (x0 : (⟨S1048576x128, .f32⟩ : BufTy).Contents (Elt Ideal)) (x1 : (⟨S128, .f32⟩ : BufTy).Contents (Elt Ideal))
    (x2 : (⟨S128x128, .f32⟩ : BufTy).Contents (Elt Ideal)) (x3 : (⟨S128, .f32⟩ : BufTy).Contents (Elt Ideal)) :
    val_main_v8 (F := Ideal) x0 x1 x2 x3 = out x0 x1 x2 x3 := by
  funext i
  obtain ⟨r, c, rfl⟩ : ∃ (r : Fin 1048576) (c : Fin 128), i = ix2 r c := ⟨i 0, i 1, eq_ix2 i⟩
  rw [val_main_v8_apply, val_main_v7_apply, val_main_v4_apply, val_main_v6_apply, val_main_v5_apply, bias_idx_eq, out_apply]
  show Ideal.tanh ((∑ k : Fin 128, x0 (lidx_main_v4 (ix2 r c) k) * val_main_v3 (F := Ideal) x1 x2 (ridx_main_v4 (ix2 r c) k)) + x3 (ix1 c)) = _
  refine congrArg Ideal.tanh (congrArg (· + x3 (ix1 c)) (Finset.sum_congr rfl fun k _ => ?_))
  rw [lidx_eq, ridx_eq, scaled_eq]

end Cert.Layer

end
-- ==== Proof.Body.lean ====
/-
  The kernel body's one stored value, read at an entry of the output block. The body loads a block of 8192
  batch rows, the column of s, the matrix V and the bias row; it scales row k of V by exp(s[k]), multiplies
  the batch rows into the scaled matrix (into a zero accumulator, so the product is the plain sum over k),
  adds the bias row to every row and applies tanh. The two narrowings to bf16 are the identity on the extended
  reals. So entry (p, q) of the stored block is
      tanh( Σ_k xblk[p, k] · (exp(scol[k, 0]) · V[k, q]) + brow[0, q] ).
-/
import proofs.«425555_j35854386987282_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Layer

open Cert.KernelIdeal Cert.KernelIdeal.Gen Idealize.ShloMosaic Idealize.ShloMosaic.ValueIdx

/-- The matrix product's dimension numbers: rows of the left operand against columns of the right, one contracted axis of extent 128. -/
abbrev mm : DotDims S8192x128 S128x128 S8192x128 := dot_S8192x128_S128x128_S8192x128_1_0_0_1_n_n

theorem mm_lhs_0 (i : S8192x128.Idx) (q : mm.contr.Idx) : (mm.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem mm_lhs_1 (i : S8192x128.Idx) (q : mm.contr.Idx) : (mm.lhsIdx i q 1).val = (q ⟨0, by decide⟩).val :=
  dot_S8192x128_S128x128_S8192x128_1_0_0_1_n_n.lhsIdx_val_of_single rfl i q
theorem mm_rhs_0 (i : S8192x128.Idx) (q : mm.contr.Idx) : (mm.rhsIdx i q 0).val = (q ⟨0, by decide⟩).val :=
  dot_S8192x128_S128x128_S8192x128_1_0_0_1_n_n.rhsIdx_val_of_single rfl i q
theorem mm_rhs_1 (i : S8192x128.Idx) (q : mm.contr.Idx) : (mm.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A product into the zero accumulator, at (p, q): the sum over k of left[p, k] · right[k, q]. -/
theorem matmul_zero_apply (l : FVec Ideal S8192x128 .bf16) (r : FVec Ideal S128x128 .bf16) (p : Fin 8192) (q : Fin 128) :
    FloatOps.matmul mm none l r (constant S8192x128 .f32 0x00000000#32) (ix2 p q) = ∑ k : Fin 128, l (ix2 p k) * r (ix2 k q) := by
  rw [Ideal.matmul_constant_zero_apply, ← Equiv.sum_comp (contrEquiv1 mm 128 rfl rfl).symm]
  refine Finset.sum_congr rfl fun k _ => ?_
  have hk := contrEquiv1_symm_val mm 128 rfl rfl k
  have el : mm.lhsIdx (ix2 p q) ((contrEquiv1 mm 128 rfl rfl).symm k) = ix2 p k := funext fun a => Fin.ext (by
    match a with
    | ⟨0, _⟩ => exact mm_lhs_0 _ _
    | ⟨1, _⟩ => exact (mm_lhs_1 _ _).trans hk)
  have er : mm.rhsIdx (ix2 p q) ((contrEquiv1 mm 128 rfl rfl).symm k) = ix2 k q := funext fun a => Fin.ext (by
    match a with
    | ⟨0, _⟩ => exact (mm_rhs_0 _ _).trans hk
    | ⟨1, _⟩ => exact mm_rhs_1 _ _)
  rw [el, er]

/-- A column [128, 1] broadcast along the lanes to [128, 128] reads, at (k, q), the column's entry k. -/
theorem column_broadcast_apply (v : FVec Ideal S128x1 .f32) (h : S128x1.Broadcasts S128x128) (k q : Fin 128) :
    broadcastTo S128x128 v h (ix2 k q) = v (ix2 k (0 : Fin 1)) := by
  refine broadcastTo_apply v h (ix2 k q) (ix2 k (0 : Fin 1)) fun ax => ?_
  match ax with
  | ⟨0, _⟩ => rfl
  | ⟨1, _⟩ => rfl

/-- The scaled weight the body forms, at (k, q). -/
theorem scaled_apply (x1 : FVec Ideal S128x1 .f32) (x2 : FVec Ideal S128x128 .f32) (k q : Fin 128) :
    (truncf .bf16 (mulf (broadcastTo S128x128 (exp (shapeCast S128x1 x1 shapeCasts_S128x1_S128x1)) broadcasts_S128x1_S128x128) x2) bitsLt_bf16_f32 : FVec Ideal S128x128 .bf16) (ix2 k q)
      = Ideal.exp (x1 (ix2 k (0 : Fin 1))) * x2 (ix2 k q) := by
  rw [shapeCast_self]
  show broadcastTo S128x128 (exp x1) broadcasts_S128x1_S128x128 (ix2 k q) * x2 (ix2 k q) = _
  rw [column_broadcast_apply]
  rfl

/-- THE STORED BLOCK at (p, q). -/
theorem payload_apply (x0 : FVec Ideal S8192x128 .f32) (x1 : FVec Ideal S128x1 .f32) (x2 : FVec Ideal S128x128 .f32) (x3 : FVec Ideal S1x128 .f32)
    (p : Fin 8192) (q : Fin 128) :
    k0_pay1 (F := Ideal) x0 x1 x2 x3 (ix2 p q)
      = Ideal.tanh ((∑ k : Fin 128, x0 (ix2 p k) * (Ideal.exp (x1 (ix2 k (0 : Fin 1))) * x2 (ix2 k q))) + x3 (ix2 (0 : Fin 1) q)) := by
  unfold k0_pay1
  show Ideal.tanh (FloatOps.matmul mm none (truncf .bf16 x0 bitsLt_bf16_f32 : FVec Ideal S8192x128 .bf16)
      (truncf .bf16 (mulf (broadcastTo S128x128 (exp (shapeCast S128x1 x1 shapeCasts_S128x1_S128x1)) broadcasts_S128x1_S128x128) x2) bitsLt_bf16_f32 : FVec Ideal S128x128 .bf16)
      (constant S8192x128 .f32 0x00000000#32) (ix2 p q)
    + broadcastTo S8192x128 (shapeCast S1x128 x3 shapeCasts_S1x128_S1x128) broadcasts_S1x128_S8192x128 (ix2 p q)) = _
  refine congrArg Ideal.tanh ?_
  refine congrArg₂ (· + ·) ?_ ?_
  · refine (matmul_zero_apply _ _ p q).trans ?_
    refine Finset.sum_congr rfl fun k _ => ?_
    exact congrArg (x0 (ix2 p k) * ·) (scaled_apply x1 x2 k q)
  · rw [shapeCast_self]
    exact broadcastTo_1b_ab_apply x3 broadcasts_S1x128_S8192x128 p q

end Cert.Layer

end
-- ==== Proof.Blocks.lean ====
/-
  From blocks to the array. The grid has 128 points; point t stages batch rows 8192·t … 8192·t + 8191 of x,
  the whole column of s (reshaped to [128, 1] before the region), the whole of V and the whole bias row
  (reshaped to [1, 128]), and writes back rows 8192·t … 8192·t + 8191 of the output. The body's stored
  block at (p, q) is the layer's entry at row 8192·t + p and column q, so each point writes the matching block of
  the layer's output; the 128 blocks cover every row, so the output array after the run IS the layer's output.
-/
import proofs.«425555_j35854386987282_3_alg».proof.Proof.Gen.KernelIdeal.Value
import proofs.«425555_j35854386987282_3_alg».proof.Proof.Layer
import proofs.«425555_j35854386987282_3_alg».proof.Proof.Body
import Idealize.ShloMosaic.Lib.StableHlo.Run

noncomputable section

open scoped BigOperators

namespace Cert.Layer

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## What the region finds: the two reshaped arguments -/

/-- The column the region finds for s is s itself, laid out as [128, 1]. -/
theorem scol_eq (c : Dev nD) :
    (V m c main_v0 : S128x1.Idx → EReal) = shapeCast S128x1 (m ((c : Thread nD τ).loc main_arg1)) shapeCasts_S128_S128x1 := by
  dsimp only [Gen.V, Gen.hostOps0]; after_results; rfl

/-- The row the region finds for the bias is the bias itself, laid out as [1, 128]. -/
theorem brow_eq (c : Dev nD) :
    (V m c main_v1 : S1x128.Idx → EReal) = shapeCast S1x128 (m ((c : Thread nD τ).loc main_arg3)) shapeCasts_S128_S1x128 := by
  dsimp only [Gen.V, Gen.hostOps0]; after_results; rfl

/-! ## The index maps, decided over the 128 grid points -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- Row p of point t's block is row 8192·t + p of the array. -/
def row (t : Fin cfg0.N) (p : Fin 8192) : Fin 1048576 := ⟨t.val * 8192 + p.val, by have := point_lt t; have := p.isLt; omega⟩

/-! ## Each staged block, read at an entry -/

/-- Point t's block of x at (p, k) is x at (8192·t + p, k). -/
theorem xblk_apply (c : Dev nD) (t : Fin cfg0.N) (p : Fin 8192) (k : Fin 128) :
    (iblk m c 0 t (ix2 p k) : EReal) = m ((c : Thread nD τ).loc main_arg0) (ix2 (row t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 8192 + 1 * p.val = t.val * 8192 + p.val; omega
  | ⟨1, _⟩ => show win0_0.index t (1 : Fin 2) * 128 + 1 * k.val = k.val; omega

/-- The staged column of s at (k, 0) is s at k, at every point. -/
theorem scol_apply (c : Dev nD) (t : Fin cfg0.N) (k : Fin 128) :
    (iblk m c 1 t (ix2 k (0 : Fin 1)) : EReal) = m ((c : Thread nD τ).loc main_arg1) (ix1 k) := by
  obtain ⟨-, -, e0, e1, -⟩ := idx_facts t
  show (V m c main_v0 : S128x1.Idx → EReal) (((cfg0.win 1).blk t).view.emb (ix2 k (0 : Fin 1))) = _
  have e : ((cfg0.win 1).blk t).view.emb (ix2 k (0 : Fin 1)) = ix2 k (0 : Fin 1) := by
    funext a; apply Fin.ext
    match a with
    | ⟨0, _⟩ => show win0_1.index t (0 : Fin 2) * 128 + 1 * k.val = k.val; omega
    | ⟨1, _⟩ => show win0_1.index t (1 : Fin 2) * 1 + 1 * 0 = 0; omega
  rw [e, scol_eq]
  exact shapeCast_apply _ _ _ (ix1 k) (by
    rw [Shape.rowMajor_val_two, Shape.rowMajor_val_one]
    show k.val = k.val * 1 + 0
    omega)

/-- The staged V at (k, q) is V at (k, q), at every point. -/
theorem vblk_apply (c : Dev nD) (t : Fin cfg0.N) (k q : Fin 128) :
    (iblk m c 2 t (ix2 k q) : EReal) = m ((c : Thread nD τ).loc main_arg2) (ix2 k q) := by
  obtain ⟨-, -, -, -, e0, e1, -⟩ := idx_facts t
  show V m c main_arg2 (((cfg0.win 2).blk t).view.emb (ix2 k q)) = _
  rw [V_main_arg2]
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The staged bias row at (0, q) is the bias at q, at every point. -/
theorem brow_apply (c : Dev nD) (t : Fin cfg0.N) (q : Fin 128) :
    (iblk m c 3 t (ix2 (0 : Fin 1) q) : EReal) = m ((c : Thread nD τ).loc main_arg3) (ix1 q) := by
  obtain ⟨-, -, -, -, -, -, e0, e1, -⟩ := idx_facts t
  show (V m c main_v1 : S1x128.Idx → EReal) (((cfg0.win 3).blk t).view.emb (ix2 (0 : Fin 1) q)) = _
  have e : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  rw [e, brow_eq]
  exact shapeCast_a_1a_apply _ shapeCasts_S128_S1x128 (0 : Fin 1) q

/-- Entry (p, q) of point t's output block sits at (8192·t + p, q) of the output array. -/
theorem oblk_emb (t : Fin cfg0.N) (p : Fin 8192) (q : Fin 128) :
    ((cfg0.win 4).blk t).view.emb (ix2 p q) = ix2 (row t p) q := by
  obtain ⟨-, -, -, -, -, -, -, -, e0, e1⟩ := idx_facts t
  funext a; apply Fin.ext
  match a with
  | ⟨0, _⟩ => show win0_4.index t (0 : Fin 2) * 8192 + 1 * p.val = t.val * 8192 + p.val; omega
  | ⟨1, _⟩ => show win0_4.index t (1 : Fin 2) * 128 + 1 * q.val = q.val; omega

/-! ## What each point writes back, and the array after the run -/

/-- WHAT POINT t WRITES BACK is block t of the layer's output of the four arguments as launched. -/
theorem flushed_eq (c : Dev nD) (t : Fin cfg0.N) :
    (dats m 0 c).flushed 4 t = ((cfg0.win 4).blk t).view.read (Elt Ideal)
      (out (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zero_offsets]
  simp only [View.ld_unit_zero (S := S8192x128) zero_offsets, View.ld_unit_zero (S := S128x1) zero_offsets,
    View.ld_unit_zero (S := S128x128) zero_offsets, View.ld_unit_zero (S := S1x128) zero_offsets]
  funext j
  obtain ⟨p, q, rfl⟩ : ∃ (p : Fin 8192) (q : Fin 128), j = ix2 p q := ⟨j 0, j 1, eq_ix2 j⟩
  show k0_pay1 (F := Ideal) (iblk m c 0 t) (iblk m c 1 t) (iblk m c 2 t) (iblk m c 3 t) (ix2 p q)
    = out (m ((c : Thread nD τ).loc main_arg0)) (m ((c : Thread nD τ).loc main_arg1)) (m ((c : Thread nD τ).loc main_arg2)) (m ((c : Thread nD τ).loc main_arg3))
        (((cfg0.win 4).blk t).view.emb (ix2 p q))
  rw [oblk_emb, out_apply]
  refine (payload_apply (iblk m c 0 t) (iblk m c 1 t) (iblk m c 2 t) (iblk m c 3 t) p q).trans ?_
  unfold entry weight
  refine congrArg Ideal.tanh (congrArg₂ (· + ·) (Finset.sum_congr rfl fun k _ => ?_) (brow_apply m c t q))
  rw [xblk_apply, scol_apply, vblk_apply]

/-- An index of the array is in point t's block iff each coordinate is in the block's range on its axis. -/
theorem mem_blk (t : Fin cfg0.N) (i : S1048576x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v2).slice (win0_4.rect t)).set ↔ _
  rw [View.set_slice_whole, Rect.mem_set_unit]
  exact Iff.rfl

/-- Every index of the output array lies in some point's block: row r in the block of point r / 8192. -/
theorem covered (i : S1048576x128.Idx) : ∃ t : Fin cfg0.N, (cfg0.win 4).flush t = true ∧ i ∈ ((cfg0.win 4).blk t).view.set := by
  have hi0 : (i 0).val < 1048576 := (i 0).isLt
  have hi1 : (i 1).val < 128 := (i 1).isLt
  have hN : cfg0.N = 128 := N_0
  have ht : (i 0).val / 8192 < cfg0.N := by rw [hN]; omega
  obtain ⟨-, -, -, -, -, -, -, -, e0, e1⟩ := idx_facts ⟨(i 0).val / 8192, ht⟩
  refine ⟨⟨(i 0).val / 8192, ht⟩, flush0_4 _, ?_⟩
  rw [mem_blk]
  intro a
  match a with
  | ⟨0, _⟩ =>
    show win0_4.index ⟨(i 0).val / 8192, ht⟩ (0 : Fin 2) * 8192 ≤ (i 0).val ∧ (i 0).val < win0_4.index ⟨(i 0).val / 8192, ht⟩ (0 : Fin 2) * 8192 + 8192
    have e0' : win0_4.index ⟨(i 0).val / 8192, ht⟩ (0 : Fin 2) = (i 0).val / 8192 := e0
    omega
  | ⟨1, _⟩ =>
    show win0_4.index ⟨(i 0).val / 8192, ht⟩ (1 : Fin 2) * 128 ≤ (i 1).val ∧ (i 1).val < win0_4.index ⟨(i 0).val / 8192, ht⟩ (1 : Fin 2) * 128 + 128
    omega

/-- THE OUTPUT ARRAY after the run is the layer's output of the four arguments as launched. -/
theorem final (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) covered

/-- The kernel's run: every weakly fair execution terminates with the result array at the layer's output and the arguments unchanged. -/
theorem kernel_run : θ_run defs (onTc (τ := τ) (main (F := Ideal))) ⟨m, fun _ => 0, ρ⟩ fun r => ∀ c : Dev nD,
      r.2.mem ((c : Thread nD τ).loc main_v2)
        = out (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Layer

end
-- ==== Proof.lean ====
/-
  The kernel computes y = tanh(x · W + bias) with W = diag(exp s) · V, over x : [1048576, 128], s : [128],
  V : [128, 128], bias : [128], in 128 grid steps of 8192 batch rows each; W is rebuilt from s and V in every
  step, x's block and W are narrowed to bf16 before the product, and the product accumulates in f32 from zero.
  The reference computes tanh(x · (diag(exp s) · V) + bias) as nine whole-array operations: exp of s, the
  scaling of V's rows, one contraction over the shared axis, the bias added to every row, and tanh.

  Over the extended reals the narrowings are the identity, the matrix unit's product into a zero accumulator
  and the host's dot_general are both the plain sum over the contracted index, and exp and tanh denote one
  function each on the two sides. So both programs end with

      out[r, c] = tanh( Σ_{k < 128} x[r, k] · (exp(s[k]) · V[k, c]) + bias[c] )

  (Proof/Layer.lean). The reference's nine host operations are read at an index in Proof/RefLayer.lean; the
  kernel body's stored block is read at an entry in Proof/Body.lean; Proof/Blocks.lean shows that grid point t
  writes rows 8192·t … 8192·t + 8191 of that array and that the 128 blocks cover it. The two sides agree term
  by term, so no law of extended-real arithmetic and no finiteness of the inputs is used.

  The three frames are the programs' runs with the results dropped; the idealization rewrote no operation, so
  there is nothing to preserve.
-/
import proofs.«425555_j35854386987282_3_alg».proof.Defs
import proofs.«425555_j35854386987282_3_alg».proof.Proof.Gen.Kernel
import proofs.«425555_j35854386987282_3_alg».proof.Proof.Gen.Kernel.Skeleton
import proofs.«425555_j35854386987282_3_alg».proof.Proof.Gen.Kernel.Launch
import proofs.«425555_j35854386987282_3_alg».proof.Proof.Gen.Kernel.Points
import proofs.«425555_j35854386987282_3_alg».proof.Proof.Gen.Kernel.Frame
import proofs.«425555_j35854386987282_3_alg».proof.Proof.Gen.KernelIdeal
import proofs.«425555_j35854386987282_3_alg».proof.Proof.Gen.KernelIdeal.Skeleton
import proofs.«425555_j35854386987282_3_alg».proof.Proof.Gen.KernelIdeal.Launch
import proofs.«425555_j35854386987282_3_alg».proof.Proof.Gen.KernelIdeal.Points
import proofs.«425555_j35854386987282_3_alg».proof.Proof.Gen.KernelIdeal.Frame
import proofs.«425555_j35854386987282_3_alg».proof.Proof.Gen.ReferenceIdeal
import proofs.«425555_j35854386987282_3_alg».proof.Proof.Gen.Pre_finite_inputs
import proofs.«425555_j35854386987282_3_alg».proof.Proof.Gen.KernelIdeal.Value
import proofs.«425555_j35854386987282_3_alg».proof.Proof.Gen.ReferenceIdeal.Run
import proofs.«425555_j35854386987282_3_alg».proof.Proof.Gen.ReferenceIdeal.Read
import proofs.«425555_j35854386987282_3_alg».proof.Proof.Layer
import proofs.«425555_j35854386987282_3_alg».proof.Proof.RefLayer
import proofs.«425555_j35854386987282_3_alg».proof.Proof.Body
import proofs.«425555_j35854386987282_3_alg».proof.Proof.Blocks
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, s, V and bias, the kernel's result array and the reference's both end at the
    layer's output of those four arrays. -/
theorem algebraic : Cert.algebraic_KernelIdeal_ReferenceIdeal := by
  intro m ρ m' ρ' _ hagree
  refine ⟨_, Cert.Layer.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Layer.reference_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
